-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S2097152 : Shape := ⟨1, ![2097152]⟩
abbrev S4096x8 : Shape := ⟨2, ![4096, 8]⟩
abbrev S4096x1 : Shape := ⟨2, ![4096, 1]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096x8 : S_.BroadcastsInDim S4096x8 (![] : Fin 0 → Fin S4096x8.rank)
  reducesTo_S4096x8_S_d0_1 : S4096x8.ReducesTo [0, 1] S_
  bcast_S_S4096x1 : S_.BroadcastsInDim S4096x1 (![] : Fin 0 → Fin S4096x1.rank)
  reducesTo_S4096x1_S_d0_1 : S4096x1.ReducesTo [0, 1] S_

variable [Facts]

def fn {F : FTy → Type} [FloatOps F] (main_arg0 : FVec F S2x2048x4096 .f32) (main_arg1 : IVec S2097152 32) (main_arg2 : FVec F S4096x8 .f32) (main_arg3 : FVec F S4096x1 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096x8 .f32 := Host.absf main_arg2
  let main_cst_0 : FVec F S_ .f32 := constant S_ .f32 0x7F800000#32
  let main_v5 : FVec F S4096x8 .f32 := broadcastInDim S4096x8 ![] bcast_S_S4096x8 main_cst_0
  let main_v6 : IVec S4096x8 1 := cmpf .olt main_v4 main_v5
  let main_c_1 : IVec S_ 1 := constantI S_ 1 1#1
  let main_v7 : IVec S_ 1 := (fun x v => Host.reduce IntOp.andi x v reducesTo_S4096x8_S_d0_1 h_S_) main_v6 main_c_1
  let main_v8 : IVec S_ 1 := andi main_v3 main_v7
  let main_v9 : FVec F S4096x1 .f32 := Host.absf main_arg3
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  main_v13
-- ==== Kernel.lean ====
abbrev S2x2048x4096 : Shape := ⟨3, ![2, 2048, 4096]⟩
abbrev S2097152 : Shape := ⟨1, ![2097152]⟩
abbrev S4096x8 : Shape := ⟨2, ![4096, 8]⟩
abbrev S4096x1 : Shape := ⟨2, ![4096, 1]⟩
abbrev S_ : Shape := ⟨0, ![]⟩
abbrev S2097152x1 : Shape := ⟨2, ![2097152, 1]⟩
abbrev S2097152x8 : Shape := ⟨2, ![2097152, 8]⟩
abbrev S4096x4096 : Shape := ⟨2, ![4096, 4096]⟩
abbrev S1024x1024 : Shape := ⟨2, ![1024, 1024]⟩

abbrev nBuf : Space → Nat
  | .hbm => 21
  | .vmem => 7
  | .smem => 0
  | _ => 0

abbrev bufTy : (tb : Table) → Fin (tcTables nBuf tb) → BufTy
  | .hbm, ⟨0, _⟩ => ⟨S2x2048x4096, .f32⟩
  | .hbm, ⟨1, _⟩ => ⟨S2097152, .i32⟩
  | .hbm, ⟨2, _⟩ => ⟨S4096x8, .f32⟩
  | .hbm, ⟨3, _⟩ => ⟨S4096x1, .f32⟩
  | .hbm, ⟨4, _⟩ => ⟨S_, .i32⟩
  | .hbm, ⟨5, _⟩ => ⟨S2097152, .i32⟩
  | .hbm, ⟨6, _⟩ => ⟨S2097152, .i1⟩
  | .hbm, ⟨7, _⟩ => ⟨S_, .i32⟩
  | .hbm, ⟨8, _⟩ => ⟨S2097152, .i32⟩
  | .hbm, ⟨9, _⟩ => ⟨S2097152, .i32⟩
  | .hbm, ⟨10, _⟩ => ⟨S2097152, .i32⟩
  | .hbm, ⟨11, _⟩ => ⟨S2097152x1, .i32⟩
  | .hbm, ⟨12, _⟩ => ⟨S2097152x8, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .bf16⟩
  | .hbm, ⟨18, _⟩ => ⟨S4096x4096, .bf16⟩
  | .hbm, ⟨19, _⟩ => ⟨S4096x4096, .f32⟩
  | .hbm, ⟨20, _⟩ => ⟨S2x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S_S2097152 : S_.BroadcastsInDim S2097152 (![] : Fin 0 → Fin S2097152.rank)
  bcast_S2097152_S2097152x1_0 : S2097152.BroadcastsInDim S2097152x1 (![0] : Fin 1 → Fin S2097152x1.rank)
  shapeCasts_S2097152x8_S4096x4096 : S2097152x8.ShapeCasts S4096x4096
  bcast_S4096x1_S4096x4096_0_1 : S4096x1.BroadcastsInDim S4096x4096 (![0, 1] : Fin 2 → Fin S4096x4096.rank)
  shapeCasts_S2x2048x4096_S4096x4096 : S2x2048x4096.ShapeCasts S4096x4096
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S4096x4096_S2x2048x4096 : S4096x4096.ShapeCasts S2x2048x4096
  gather_S4096x8_S2097152x1_S2097152x8_1_0_n_n_0_1_18_wf : GatherDims.WF S4096x8 S2097152x1 S2097152x8 [1] [0] [] [0] [] 1 ![1, 8]
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)

variable [Facts₀]

def gather_S4096x8_S2097152x1_S2097152x8_1_0_n_n_0_1_18 : GatherDims S4096x8 S2097152x1 S2097152x8 where
  offsetDims := [1]
  collapsedSliceDims := [0]
  operandBatchingDims := []
  startIndicesBatchingDims := []
  startIndexMap := [0]
  indexVectorDim := 1
  sliceSizes := ![1, 8]
  wf := gather_S4096x8_S2097152x1_S2097152x8_1_0_n_n_0_1_18_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v11) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S2097152 : Shape := ⟨1, ![2097152]⟩
abbrev S4096x8 : Shape := ⟨2, ![4096, 8]⟩
abbrev S4096x1 : Shape := ⟨2, ![4096, 1]⟩
abbrev S_ : Shape := ⟨0, ![]⟩
abbrev S2097152x1 : Shape := ⟨2, ![2097152, 1]⟩
abbrev S2097152x8 : Shape := ⟨2, ![2097152, 8]⟩
abbrev S4096x4096 : Shape := ⟨2, ![4096, 4096]⟩

abbrev nBuf : Space → Nat
  | .hbm => 17
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S2097152, .i32⟩
  | .hbm, ⟨2, _⟩ => ⟨S4096x8, .f32⟩
  | .hbm, ⟨3, _⟩ => ⟨S4096x1, .f32⟩
  | .hbm, ⟨4, _⟩ => ⟨S_, .i32⟩
  | .hbm, ⟨5, _⟩ => ⟨S2097152, .i32⟩
  | .hbm, ⟨6, _⟩ => ⟨S2097152, .i1⟩
  | .hbm, ⟨7, _⟩ => ⟨S_, .i32⟩
  | .hbm, ⟨8, _⟩ => ⟨S2097152, .i32⟩
  | .hbm, ⟨9, _⟩ => ⟨S2097152, .i32⟩
  | .hbm, ⟨10, _⟩ => ⟨S2097152, .i32⟩
  | .hbm, ⟨11, _⟩ => ⟨S2097152x1, .i32⟩
  | .hbm, ⟨12, _⟩ => ⟨S2097152x8, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S_S2097152 : S_.BroadcastsInDim S2097152 (![] : Fin 0 → Fin S2097152.rank)
  bcast_S2097152_S2097152x1_0 : S2097152.BroadcastsInDim S2097152x1 (![0] : Fin 1 → Fin S2097152x1.rank)
  shapeCasts_S2097152x8_S4096x4096 : S2097152x8.ShapeCasts S4096x4096
  bcast_S4096x1_S4096x4096_0_1 : S4096x1.BroadcastsInDim S4096x4096 (![0, 1] : Fin 2 → Fin S4096x4096.rank)
  gather_S4096x8_S2097152x1_S2097152x8_1_0_n_n_0_1_18_wf : GatherDims.WF S4096x8 S2097152x1 S2097152x8 [1] [0] [] [0] [] 1 ![1, 8]
  dot_S2x2048x4096_S4096x4096_S2x2048x4096_2_1_01_0_n_n_wf : DotDims.WF S2x2048x4096 S4096x4096 S2x2048x4096 [2] [1] [0, 1] [0] [] []

variable [Facts₀]

def gather_S4096x8_S2097152x1_S2097152x8_1_0_n_n_0_1_18 : GatherDims S4096x8 S2097152x1 S2097152x8 where
  offsetDims := [1]
  collapsedSliceDims := [0]
  operandBatchingDims := []
  startIndicesBatchingDims := []
  startIndexMap := [0]
  indexVectorDim := 1
  sliceSizes := ![1, 8]
  wf := gather_S4096x8_S2097152x1_S2097152x8_1_0_n_n_0_1_18_wf
def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf

class Facts : Prop extends Facts₀ where

variable [Facts]
-- ==== Proof.MatmulSteps.lean ====
/-
  What the accumulator tile holds after each grid point, as a recursion over the points.

  The grid has 64 points, visited in order; the innermost coordinate k = n mod 4 is the column-block index
  of the contraction.  At a point with k = 0 the body first stores the zero tile into the accumulator and
  then adds the tile product of the point's two input tiles; at a point with k = 1, 2, 3 it adds the tile
  product to what the previous point left.  At k = 3 it also copies the accumulator into the output tile,
  which is the only point of each group of four at which the output tile is written back.
  So the accumulator after point n is a chain of updates starting at the last point with k = 0, and the
  output tile written back at a point with k = 3 is the accumulator there.
-/
import proofs.«158216_j49907519980150_1_alg».proof.Proof.Gen.KernelIdeal.Frame
import Idealize.ShloMosaic.Lib.Pipeline.Value
import Idealize.ShloMosaic.Lib.Tactic

noncomputable section

namespace Cert.KernelIdeal.Steps

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem hz : (![0, 0] : Fin 2 → Nat) = fun _ => 0 := funext fun a => by fin_cases a <;> rfl

/-- A point with k = 0 leaves in the accumulator the update of the zero tile: the reset is stored first and
    read back by the update. -/
theorem acc_A (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (x0 x1 : Vec F S1024x1024 .bf16) :
    sout0_A_0 c i a3 h3 a4 h4 a5 h5 a6 h6 hc0 hc1 x0 x1 = k0_pay2 (k0_pay1 (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz,
    View.readCov_unit_zero (S := S1024x1024) _ hz]

/-- A point with k = 1 or 2 leaves in the accumulator the update of what it found there. -/
theorem acc_B (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : ¬cond0_1 i)
    (x0 x1 : Vec F S1024x1024 .bf16) (xs0 : Vec F S1024x1024 .f32) :
    sout0_B_0 c i a3 h3 a4 h4 a5 h5 a6 h6 hc0 hc1 x0 x1 xs0 = k0_pay2 xs0 x0 x1 := by
  unfold sout0_B_0
  rw [View.read_writes_eq_canon _ _ _ (scover0_B_0 c i a3 h3 a4 h4 a5 h5 a6 h6 hc0 hc1 x0 x1 xs0)]
  unfold kernelRun0_B
  dsimp only
  sl_unfold_words
  rw [View.canon_unit_zero hz]
  simp only [View.readAt_eq_ld, h3.read_unread, h4.read_unread, h6.read_unread, View.ld_unit_zero (S := S1024x1024) hz]

/-- A point with k = 3 leaves in the accumulator the update of what it found there, -/
theorem acc_C (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 : Vec F S1024x1024 .bf16) (xs0 : Vec F S1024x1024 .f32) :
    sout0_C_0 c i a3 h3 a4 h4 a5 h5 a6 h6 hc0 hc1 x0 x1 xs0 = k0_pay2 xs0 x0 x1 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S1024x1024) hz]

/-- and in the output tile the same: the accumulator read back after the update. -/
theorem out_C (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 : Vec F S1024x1024 .bf16) (xs0 : Vec F S1024x1024 .f32) :
    out0_C_2 c i a3 h3 a4 h4 a5 h5 a6 h6 hc0 hc1 x0 x1 xs0 = k0_pay2 xs0 x0 x1 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S1024x1024) hz,
    View.readCov_unit_zero (S := S1024x1024) _ hz]

/-- The two input tiles of a point, at their literal types. -/
abbrev xtile (c : Dev nD) (t : Fin cfg0.N) : Vec F S1024x1024 .bf16 := iblk m c 0 t
abbrev wtile (c : Dev nD) (t : Fin cfg0.N) : Vec F S1024x1024 .bf16 := iblk m c 1 t

/-- The accumulator after point n: an update of the zero tile where n mod 4 = 0, of the accumulator after
    the point before elsewhere. -/
def chain (c : Dev nD) : (n : ℕ) → n < cfg0.N → Vec F S1024x1024 .f32
  | 0, h => k0_pay2 (k0_pay1 (F := F)) (xtile m c ⟨0, h⟩) (wtile m c ⟨0, h⟩)
  | n + 1, h =>
    if (n + 1) % 4 = 0 then k0_pay2 (k0_pay1 (F := F)) (xtile m c ⟨n + 1, h⟩) (wtile m c ⟨n + 1, h⟩)
    else k0_pay2 (chain c n (Nat.lt_of_succ_lt h)) (xtile m c ⟨n + 1, h⟩) (wtile m c ⟨n + 1, h⟩)

theorem chain_reset (c : Dev nD) (n : ℕ) (h : n < cfg0.N) (h0 : n % 4 = 0) :
    chain m c n h = k0_pay2 (k0_pay1 (F := F)) (xtile m c ⟨n, h⟩) (wtile m c ⟨n, h⟩) := by
  cases n with
  | zero => rfl
  | succ n => unfold chain; rw [if_pos h0]

theorem chain_step (c : Dev nD) (n : ℕ) (h : n + 1 < cfg0.N) (h0 : ¬(n + 1) % 4 = 0) :
    chain m c (n + 1) h = k0_pay2 (chain m c n (Nat.lt_of_succ_lt h)) (xtile m c ⟨n + 1, h⟩) (wtile m c ⟨n + 1, h⟩) := by
  rw [chain]; rw [if_neg h0]

/-- The accumulator component of the frame's point-by-point contents is the chain, by induction on the point. -/
theorem acc_eq (c : Dev nD) : ∀ (n : ℕ) (h : n < cfg0.N), (outsAt0 m c n h).2 = chain m c n h
  | 0, h => by
    rw [outsAt0_A m c ⟨0, h⟩ rfl (by show ¬(0 : ℕ) % 4 = 3; decide)]
    dsimp only
    exact acc_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      scM0_0 (Memref.isWhole_whole _) _ _ (iblk m c 0 ⟨0, h⟩) (iblk m c 1 ⟨0, h⟩)
  | n + 1, h => by
    by_cases h0 : (n + 1) % 4 = 0
    · have h1 : ¬(n + 1) % 4 = 3 := by omega
      rw [outsAt0_A m c ⟨n + 1, h⟩ h0 h1, chain_reset m c (n + 1) h h0]
      dsimp only
      exact acc_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
        scM0_0 (Memref.isWhole_whole _) _ _ (iblk m c 0 ⟨n + 1, h⟩) (iblk m c 1 ⟨n + 1, h⟩)
    · rw [chain_step m c n h h0, ← acc_eq c n (Nat.lt_of_succ_lt h)]
      by_cases h1 : (n + 1) % 4 = 3
      · rw [outsAt0_C m c ⟨n + 1, h⟩ h0 h1]
        dsimp only
        exact acc_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
          scM0_0 (Memref.isWhole_whole _) _ _ (iblk m c 0 ⟨n + 1, h⟩) (iblk m c 1 ⟨n + 1, h⟩) (outsAt0 m c n (Nat.lt_of_succ_lt h)).2
      · rw [outsAt0_B m c ⟨n + 1, h⟩ h0 h1]
        dsimp only
        exact acc_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
          scM0_0 (Memref.isWhole_whole _) _ _ (iblk m c 0 ⟨n + 1, h⟩) (iblk m c 1 ⟨n + 1, h⟩) (outsAt0 m c n (Nat.lt_of_succ_lt h)).2

/-- At a point with k = 3 the output tile is the chain there too. -/
theorem out_eq (c : Dev nD) (n : ℕ) (h : n < cfg0.N) (h1 : n % 4 = 3) : (outsAt0 m c n h).1 = chain m c n h := by
  cases n with
  | zero => exact absurd h1 (by decide)
  | succ n =>
    have h0 : ¬(n + 1) % 4 = 0 := by omega
    rw [chain_step m c n h h0, ← acc_eq m c n (Nat.lt_of_succ_lt h), outsAt0_C m c ⟨n + 1, h⟩ h0 h1]
    dsimp only
    exact out_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
      scM0_0 (Memref.isWhole_whole _) _ _ (iblk m c 0 ⟨n + 1, h⟩) (iblk m c 1 ⟨n + 1, h⟩) (outsAt0 m c n (Nat.lt_of_succ_lt h)).2

end Cert.KernelIdeal.Steps

end
-- ==== Proof.MatmulSpec.lean ====
/-
  The arithmetic both programs share, stated away from either program.

  A matrix product contracted over 4096 columns, the sum over r < 4096 of X a r * W b r, is the sum of its
  four partial products over the column blocks [1024 k, 1024 (k+1)).  The kernel forms exactly those four
  partial products, one per grid step of its innermost axis, and adds each to an accumulator that the
  first step resets to zero; the reference forms the whole sum at once.  Over the extended reals addition
  is commutative and associative (also at the infinities), so regrouping a finite sum is an identity of a
  commutative monoid and no finiteness of the inputs is used.

  To keep index-bound proofs out of the induction over grid points, a matrix is also read at natural
  numbers (nat2), zero outside its extents; inside them it is the matrix (nat2_eq).
-/
import Idealize.ShloMosaic.PureOps.Ideal.Laws
import Idealize.ShloMosaic.Lib.ValueIdx

noncomputable section

namespace Cert.MatmulSpec

open Idealize.ShloMosaic Idealize.ShloMosaic.ValueIdx

/-- A rank-2 array read at natural-number coordinates: the entry inside the extents, zero outside. -/
def nat2 {n0 n1 : Nat} (X : (⟨2, ![n0, n1]⟩ : Shape).Idx → EReal) (a b : ℕ) : EReal :=
  if h : a < n0 ∧ b < n1 then X (ix2 ⟨a, h.1⟩ ⟨b, h.2⟩) else 0

theorem nat2_eq {n0 n1 : Nat} (X : (⟨2, ![n0, n1]⟩ : Shape).Idx → EReal) (a : Fin n0) (b : Fin n1) :
    nat2 X a.val b.val = X (ix2 a b) := dif_pos ⟨a.isLt, b.isLt⟩

theorem nat2_of_lt {n0 n1 : Nat} (X : (⟨2, ![n0, n1]⟩ : Shape).Idx → EReal) (a b : ℕ) (ha : a < n0) (hb : b < n1) :
    nat2 X a b = X (ix2 ⟨a, ha⟩ ⟨b, hb⟩) := dif_pos ⟨ha, hb⟩

/-- The partial product of row a of X and row b of W over column block k (columns 1024 k + r). -/
def blockDot (X W : ℕ → ℕ → EReal) (a b k : ℕ) : EReal :=
  ∑ r : Fin 1024, X a (k * 1024 + r.val) * W b (k * 1024 + r.val)

/-- The first n partial products added up. -/
def partialDot (X W : ℕ → ℕ → EReal) (a b n : ℕ) : EReal :=
  ∑ k ∈ Finset.range n, blockDot X W a b k

theorem partialDot_one (X W : ℕ → ℕ → EReal) (a b : ℕ) : partialDot X W a b 1 = blockDot X W a b 0 := by
  unfold partialDot; rw [Finset.sum_range_one]

theorem partialDot_succ (X W : ℕ → ℕ → EReal) (a b n : ℕ) :
    partialDot X W a b (n + 1) = partialDot X W a b n + blockDot X W a b n := by
  unfold partialDot; rw [Finset.sum_range_succ]

/-- A sum over 4096 positions is the sum over 4 blocks of the sums over the 1024 positions of each block. -/
theorem sum_blocks {M : Type*} [AddCommMonoid M] (f : ℕ → M) :
    ∑ r : Fin 4096, f r.val = ∑ k : Fin 4, ∑ r' : Fin 1024, f (k.val * 1024 + r'.val) := by
  have h := (Equiv.sum_comp (finProdFinEquiv (m := 4) (n := 1024)) (fun r : Fin (4 * 1024) => f r.val)).symm
  rw [Fintype.sum_prod_type] at h
  refine h.trans (Finset.sum_congr rfl fun k _ => Finset.sum_congr rfl fun r' _ => ?_)
  show f (r'.val + 1024 * k.val) = f (k.val * 1024 + r'.val)
  rw [show r'.val + 1024 * k.val = k.val * 1024 + r'.val from by omega]

/-- All four partial products: the whole contraction. -/
theorem partialDot_four (X W : ℕ → ℕ → EReal) (a b : ℕ) :
    partialDot X W a b 4 = ∑ r : Fin 4096, X a r.val * W b r.val := by
  rw [sum_blocks (fun r => X a r * W b r)]
  unfold partialDot blockDot
  rw [Finset.sum_range]

/-- The function both programs compute: out (b, s, o) = the sum over i < 4096 of x (b, s, i) * w (o, i),
    a linear layer with the weight matrix stored [out, in]. -/
def linear (x : (⟨3, ![2, 2048, 4096]⟩ : Shape).Idx → EReal) (w : (⟨2, ![4096, 4096]⟩ : Shape).Idx → EReal) :
    (⟨3, ![2, 2048, 4096]⟩ : Shape).Idx → EReal :=
  fun i => ∑ r : Fin 4096, x (ix3 (i 0) (i 1) r) * w (ix2 (i 2) r)

end Cert.MatmulSpec

end
-- ==== Proof.MatmulBody.lean ====
/-
  One grid step of the kernel body, as arithmetic on extended reals.

  At a grid point the body holds three tiles: the accumulator acc (1024 x 1024), a tile x of the left
  operand (rows p, columns r) and a tile w of the right operand in its natural layout (rows q, columns r).
  It stores acc + x . w^T back into the accumulator: entry (p, q) becomes
      acc (p, q) + sum over r < 1024 of x (p, r) * w (q, r).
  Both operands are contracted along their LAST axis, so the right tile is read at (q, r), not (r, q).
  The matrix unit is handed a zero accumulator, which contributes the additive identity, and the
  shape casts in the body are between equal shapes.  The first step of each group of four stores the
  zero tile into the accumulator before this update.
-/
import proofs.«158216_j49907519980150_1_alg».proof.Proof.Gen.KernelIdeal.Skeleton
import proofs.«158216_j49907519980150_1_alg».proof.Proof.MatmulSpec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- The left operand index of the tile product keeps the output row. -/
theorem lhs_tile_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- Its column is the contraction index. -/
theorem lhs_tile_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
/-- The right operand index takes its ROW from the output column (the operand is stored [out, in]). -/
theorem rhs_tile_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- Its column is the contraction index. -/
theorem rhs_tile_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The tile product into a zero accumulator, entry (p, q): the sum over r of x (p, r) * w (q, r). -/
theorem tile_product_apply (x w : FVec Ideal S1024x1024 .bf16) (p q : Fin 1024) :
    matmul dot_S1024x1024_S1024x1024_S1024x1024_1_1_0_0_n_n none x w (constant S1024x1024 .f32 0x00000000#32) (ix2 p q)
      = ∑ r : Fin 1024, x (ix2 p r) * w (ix2 q r) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun a => Fin.ext (by
    match a with
    | ⟨0, _⟩ => exact lhs_tile_0 _ _
    | ⟨1, _⟩ => exact (lhs_tile_1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun a => Fin.ext (by
    match a with
    | ⟨0, _⟩ => exact rhs_tile_0 _ _
    | ⟨1, _⟩ => exact (rhs_tile_1 _ _).trans hk)
  rw [el, er]

/-- The zero tile the first step of a group stores: every entry is 0. -/
theorem reset_apply (j : S1024x1024.Idx) : k0_pay1 (F := Ideal) j = 0 := by
  unfold k0_pay1
  simp only [shapeCast_self]
  show Ideal.ofBits .f32 0x00000000#32 = 0
  exact Ideal.ofBits_zero_f32

/-- The update, entry (p, q): the accumulator there plus the tile product there. -/
theorem update_apply (acc : Vec Ideal S1024x1024 .f32) (x w : Vec Ideal S1024x1024 .bf16) (p q : Fin 1024) :
    k0_pay2 (F := Ideal) acc x w (ix2 p q) = acc (ix2 p q) + ∑ r : Fin 1024, x (ix2 p r) * w (ix2 q r) := by
  unfold k0_pay2
  simp only [shapeCast_self]
  rw [addf_apply, tile_product_apply]

/-- The update after a reset, entry (p, q): the tile product alone. -/
theorem first_update_apply (x w : Vec Ideal S1024x1024 .bf16) (p q : Fin 1024) :
    k0_pay2 (F := Ideal) (k0_pay1 (F := Ideal)) x w (ix2 p q) = ∑ r : Fin 1024, x (ix2 p r) * w (ix2 q r) := by
  rw [update_apply, reset_apply, zero_add]

end Cert.KernelIdeal.Body

end
-- ==== Proof.MatmulArray.lean ====
import proofs.«158216_j49907519980150_1_alg».proof.Proof.MatmulSteps
import proofs.«158216_j49907519980150_1_alg».proof.Proof.MatmulBody
import proofs.«158216_j49907519980150_1_alg».proof.Proof.MatmulSpec
import Idealize.ShloMosaic.Lib.Pipeline.Value
import Idealize.ShloMosaic.Lib.StableHlo.Run
import Idealize.ShloMosaic.Lib.ValueIdx
import Idealize.ShloMosaic.Lib.Tactic

noncomputable section

/-
  The kernel's result array, as one function of its argument arrays.

  Write X for the left matrix the call receives (the input x with its two leading axes merged, 4096 x 4096)
  and W for the right one (the dequantised weights, rows = output features).  Grid point n has coordinates
  (i, j, k) = (n / 16, n / 4 mod 4, n mod 4); its left tile is rows 1024 i + p and columns 1024 k + r of X,
  its right tile rows 1024 j + q and columns 1024 k + r of W, and its output tile rows 1024 i + p and
  columns 1024 j + q of the result.  By induction on n the accumulator after point n holds, at (p, q), the
  first k + 1 partial products of row 1024 i + p of X with row 1024 j + q of W.  The output tile is written
  back exactly at the points with k = 3, where all four partial products are in: the whole contraction.
  These 16 tiles cover the result, so every entry (a, b) of the result is the sum over r < 4096 of
  X (a, r) * W (b, r).  The one host operation after the call only re-splits the row axis.
-/
namespace Cert.KernelIdeal.Array

open Cert.KernelIdeal Cert.KernelIdeal.Gen Cert.MatmulSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The dequantised weight matrix as the host operations before the call compute it: the codebook rows
    gathered at the (wrapped) indices, laid out as [out, in], each row scaled. -/
def weights (x1 : IVec S2097152 32) (x2 : FVec Ideal S4096x8 .f32) (x3 : FVec Ideal S4096x1 .f32) : FVec Ideal S4096x4096 .f32 :=
  mulf (F := Ideal) (shapeCast S4096x4096 (Host.gather gather_S4096x8_S2097152x1_S2097152x8_1_0_n_n_0_1_18 x2 (broadcastInDim S2097152x1 ![0] bcast_S2097152_S2097152x1_0
      (select (cmpi .slt x1 (broadcastInDim S2097152 ![] bcast_S_S2097152 (constantI S_ 32 0#32)))
        (addi x1 (broadcastInDim S2097152 ![] bcast_S_S2097152 (constantI S_ 32 4096#32))) x1))) shapeCasts_S2097152x8_S4096x4096)
    (broadcastInDim S4096x4096 ![0, 1] bcast_S4096x1_S4096x4096_0_1 x3)

/-- The left matrix the call receives: x with its leading axes merged (the narrowing to bf16 is the identity here). -/
theorem left_eq (c : Dev nD) : (V m c main_v11 : S4096x4096.Idx → EReal)
    = shapeCast S4096x4096 (m ((c : Thread nD τ).loc main_arg0)) shapeCasts_S2x2048x4096_S4096x4096 := by
  show StableHlo.after hostOps0 (fun b => m (c, b)) (Proc.devRef .tc main_v11) = _
  after_results
  rfl

/-- The right matrix the call receives: the dequantised weights. -/
theorem right_eq (c : Dev nD) : (V m c main_v12 : S4096x4096.Idx → EReal)
    = weights (m ((c : Thread nD τ).loc main_arg1)) (m ((c : Thread nD τ).loc main_arg2)) (m ((c : Thread nD τ).loc main_arg3)) := by
  show StableHlo.after hostOps0 (fun b => m (c, b)) (Proc.devRef .tc main_v12) = _
  after_results
  rfl

/-- The two matrices read at natural-number coordinates. -/
abbrev Xn (c : Dev nD) : ℕ → ℕ → EReal := nat2 (V m c main_v11 : S4096x4096.Idx → EReal)
abbrev Wn (c : Dev nD) : ℕ → ℕ → EReal := nat2 (V m c main_v12 : S4096x4096.Idx → EReal)

/-- The block indices of the three windows at point t, from its coordinates (t / 16, t / 4 mod 4, t mod 4). -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 16 ∧ win0_2.index t (1 : Fin 2) = t.val / 4 % 4 :=
  (by decide +kernel : ∀ t : Fin grid0.N, _)

/-- The left tile of point t, entry (p, r): X at row 1024 i + p, column 1024 k + r. -/
theorem xtile_apply (c : Dev nD) (t : Fin cfg0.N) (p r : Fin 1024) :
    Steps.xtile m c t (ix2 p r) = Xn m c (t.val / 16 * 1024 + p.val) (t.val % 4 * 1024 + r.val) := by
  have hN : t.val < 64 := lt_of_lt_of_eq t.isLt (show cfg0.N = 64 from N_0)
  obtain ⟨e0, e1, -⟩ := idx_facts t
  unfold Xn
  rw [nat2_of_lt _ _ _ (by omega) (by omega)]
  unfold Steps.xtile iblk
  rw [View.read_apply]
  show V m c main_v11 _ = V m c main_v11 _
  congr 1
  funext a
  apply Fin.ext
  match a with
  | ⟨0, _⟩ => show win0_0.index t (0 : Fin 2) * 1024 + 1 * p.val = t.val / 16 * 1024 + p.val; rw [e0]; omega
  | ⟨1, _⟩ => show win0_0.index t (1 : Fin 2) * 1024 + 1 * r.val = t.val % 4 * 1024 + r.val; rw [e1]; omega

/-- The right tile of point t, entry (q, r): W at row 1024 j + q, column 1024 k + r. -/
theorem wtile_apply (c : Dev nD) (t : Fin cfg0.N) (q r : Fin 1024) :
    Steps.wtile m c t (ix2 q r) = Wn m c (t.val / 4 % 4 * 1024 + q.val) (t.val % 4 * 1024 + r.val) := by
  have hN : t.val < 64 := lt_of_lt_of_eq t.isLt (show cfg0.N = 64 from N_0)
  obtain ⟨-, -, e2, e3, -⟩ := idx_facts t
  unfold Wn
  rw [nat2_of_lt _ _ _ (by omega) (by omega)]
  unfold Steps.wtile iblk
  rw [View.read_apply]
  show V m c main_v12 _ = V m c main_v12 _
  congr 1
  funext a
  apply Fin.ext
  match a with
  | ⟨0, _⟩ => show win0_1.index t (0 : Fin 2) * 1024 + 1 * q.val = t.val / 4 % 4 * 1024 + q.val; rw [e2]; omega
  | ⟨1, _⟩ => show win0_1.index t (1 : Fin 2) * 1024 + 1 * r.val = t.val % 4 * 1024 + r.val; rw [e3]; omega

/-- The tile product of point t at (p, q) is partial product k of the two rows. -/
theorem tile_dot (c : Dev nD) (t : Fin cfg0.N) (p q : Fin 1024) :
    ∑ r : Fin 1024, Steps.xtile m c t (ix2 p r) * Steps.wtile m c t (ix2 q r)
      = blockDot (Xn m c) (Wn m c) (t.val / 16 * 1024 + p.val) (t.val / 4 % 4 * 1024 + q.val) (t.val % 4) := by
  unfold blockDot
  refine Finset.sum_congr rfl fun r _ => ?_
  rw [xtile_apply, wtile_apply]

/-- The accumulator after point n, entry (p, q): the first (n mod 4) + 1 partial products. -/
theorem chain_apply (c : Dev nD) : ∀ (n : ℕ) (h : n < cfg0.N) (p q : Fin 1024),
    Steps.chain m c n h (ix2 p q)
      = partialDot (Xn m c) (Wn m c) (n / 16 * 1024 + p.val) (n / 4 % 4 * 1024 + q.val) (n % 4 + 1)
  | 0, h, p, q => by
    rw [Steps.chain_reset m c 0 h rfl, Body.first_update_apply, tile_dot m c ⟨0, h⟩ p q]
    exact (partialDot_one _ _ _ _).symm
  | n + 1, h, p, q => by
    have hN : n + 1 < 64 := lt_of_lt_of_eq h (show cfg0.N = 64 from N_0)
    by_cases h0 : (n + 1) % 4 = 0
    · rw [Steps.chain_reset m c (n + 1) h h0, Body.first_update_apply, tile_dot m c ⟨n + 1, h⟩ p q]
      show blockDot _ _ _ _ ((n + 1) % 4) = partialDot _ _ _ _ ((n + 1) % 4 + 1)
      rw [h0]
      exact (partialDot_one _ _ _ _).symm
    · rw [Steps.chain_step m c n h h0, Body.update_apply, chain_apply c n (Nat.lt_of_succ_lt h) p q, tile_dot m c ⟨n + 1, h⟩ p q]
      have e1 : n / 16 = (n + 1) / 16 := by omega
      have e2 : n / 4 % 4 = (n + 1) / 4 % 4 := by omega
      have e3 : n % 4 + 1 = (n + 1) % 4 := by omega
      show partialDot _ _ (n / 16 * 1024 + p.val) (n / 4 % 4 * 1024 + q.val) (n % 4 + 1)
          + blockDot _ _ ((n + 1) / 16 * 1024 + p.val) ((n + 1) / 4 % 4 * 1024 + q.val) ((n + 1) % 4) = _
      rw [e1, e2, e3, ← partialDot_succ]

/-- The product X . W^T, entry (a, b): the contraction over all 4096 columns. -/
def product (c : Dev nD) : S4096x4096.Idx → EReal :=
  fun j => ∑ r : Fin 4096, Xn m c (j 0).val r.val * Wn m c (j 1).val r.val

/-- What a point with k = 3 writes back is its tile of the product. -/
theorem flushed_eq (c : Dev nD) (t : Fin cfg0.N) (hf : (cfg0.win 2).flush t = true) :
    (dats m 0 c).flushed 2 t = ((cfg0.win 2).blk t).view.read (Elt Ideal) (product m c) := by
  have h3 : t.val % 4 = 3 := (flush0_2 t).mp hf
  obtain ⟨-, -, -, -, e4, e5⟩ := idx_facts t
  show (cfg0.win 2).cut (grid0.coords t) ((dats m 0 c).after 2 t) = _
  rw [after0_2, Steps.out_eq m c t.val t.isLt h3]
  funext y
  rw [View.read_apply]
  show Steps.chain m c t.val t.isLt y = product m c (((cfg0.win 2).blk t).view.emb y)
  obtain ⟨p, q, rfl⟩ : ∃ (p q : Fin 1024), y = ix2 p q := ⟨y 0, y 1, eq_ix2 y⟩
  rw [chain_apply, h3]
  unfold product
  rw [← partialDot_four]
  have r0 : ((((cfg0.win 2).blk t).view.emb (ix2 p q)) 0).val = t.val / 16 * 1024 + p.val := by
    show win0_2.index t (0 : Fin 2) * 1024 + 1 * p.val = _; rw [e4]; omega
  have r1 : ((((cfg0.win 2).blk t).view.emb (ix2 p q)) 1).val = t.val / 4 % 4 * 1024 + q.val := by
    show win0_2.index t (1 : Fin 2) * 1024 + 1 * q.val = _; rw [e5]; omega
  rw [r0, r1]

/-- An entry of the result is in point t's output tile iff each coordinate is in the tile's range on its axis. -/
theorem mem_tile (t : Fin cfg0.N) (i : S4096x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v13).slice (win0_2.rect t)).set ↔ _
  rw [View.set_slice_whole, Rect.mem_set_unit]
  exact Iff.rfl

/-- Every entry (a, b) of the result lies in the tile written back at the point (a / 1024, b / 1024, 3). -/
theorem cover (i : S4096x4096.Idx) : ∃ t : Fin cfg0.N, (cfg0.win 2).flush t = true ∧ i ∈ ((cfg0.win 2).blk t).view.set := by
  have h0 : (i 0).val < 4096 := (i 0).isLt
  have h1 : (i 1).val < 4096 := (i 1).isLt
  have hlt : (i 0).val / 1024 * 16 + (i 1).val / 1024 * 4 + 3 < cfg0.N := lt_of_lt_of_eq (by omega) (show cfg0.N = 64 from N_0).symm
  obtain ⟨-, -, -, -, e4, e5⟩ := idx_facts ⟨_, hlt⟩
  refine ⟨⟨_, hlt⟩, (flush0_2 _).mpr (by show ((i 0).val / 1024 * 16 + (i 1).val / 1024 * 4 + 3) % 4 = 3; omega), ?_⟩
  rw [mem_tile]
  intro a
  match a with
  | ⟨0, _⟩ =>
    show win0_2.index ⟨_, hlt⟩ (0 : Fin 2) * 1024 ≤ (i 0).val ∧ (i 0).val < win0_2.index ⟨_, hlt⟩ (0 : Fin 2) * 1024 + 1024
    rw [e4]; dsimp only; omega
  | ⟨1, _⟩ =>
    show win0_2.index ⟨_, hlt⟩ (1 : Fin 2) * 1024 ≤ (i 1).val ∧ (i 1).val < win0_2.index ⟨_, hlt⟩ (1 : Fin 2) * 1024 + 1024
    rw [e5]; dsimp only; omega

/-- The call's result array after the run is the product. -/
theorem final (c : Dev nD) : (dats m 0 c).arrAt 2 cfg0.N = product m c :=
  (dats m 0 c).arrAt_eq_of_cover 2 (product m c) (flushed_eq m c) cover

end Cert.KernelIdeal.Array

end
-- ==== Proof.MatmulRun.lean ====
/-
  The kernel program's run, read: its result and its unchanged arguments.

  After the call, the one remaining host operation re-splits the 4096 rows of the product into
  2 x 2048; row a = 2048 b + s of the product becomes entry (b, s, .) of the result.  The left matrix was
  made from x by the inverse merge, so row a of X is x (b, s, .).  Hence the result at (b, s, o) is the
  sum over i < 4096 of x (b, s, i) * W (o, i): the linear layer of the specification.
-/
import proofs.«158216_j49907519980150_1_alg».proof.Proof.MatmulArray

noncomputable section

namespace Cert.KernelIdeal.Array

open Cert.KernelIdeal Cert.KernelIdeal.Gen Cert.MatmulSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The program's result buffer after the host operation that follows the call: the product, re-split. -/
theorem tail_eq (c : Dev nD) :
    Pipeline.afterTail₀ cfgs (dats m) 0 (V0 m) [hostOps1] c main_v14
      = shapeCast S2x2048x4096 (product m c) shapeCasts_S4096x4096_S2x2048x4096 := by
  have e : Pipeline.withArrays (cfgs 0).spec c (V0 m c) (fun w => (dats m 0 c).arrAt w (cfgs 0).N) (Proc.devRef .tc main_v13)
      = product m c :=
    (Pipeline.withArrays_arr spec0 launch0.win.arr_inj c _ _ 2).trans (final m c)
  unfold Pipeline.afterTail₀
  show StableHlo.after hostOps1 _ (Proc.devRef .tc main_v14) = _
  after_results
  funext i
  show shapeCast S2x2048x4096 (Pipeline.withArrays (cfgs 0).spec c (V0 m c) (fun w => (dats m 0 c).arrAt w (cfgs 0).N)
      (Proc.devRef .tc main_v13)) shapeCasts_S4096x4096_S2x2048x4096 i = _
  rw [e]

/-- The re-split product is the linear layer of x and the dequantised weights. -/
theorem result_eq (c : Dev nD) :
    shapeCast S2x2048x4096 (product m c) shapeCasts_S4096x4096_S2x2048x4096
      = linear (m ((c : Thread nD τ).loc main_arg0)) (weights (m ((c : Thread nD τ).loc main_arg1)) (m ((c : Thread nD τ).loc main_arg2)) (m ((c : Thread nD τ).loc main_arg3))) := by
  funext i
  have h0 : (i 0).val < 2 := (i 0).isLt
  have h1 : (i 1).val < 2048 := (i 1).isLt
  have h2 : (i 2).val < 4096 := (i 2).isLt
  have ha : (i 0).val * 2048 + (i 1).val < 4096 := by omega
  rw [shapeCast_apply (product m c) shapeCasts_S4096x4096_S2x2048x4096 i (ix2 ⟨(i 0).val * 2048 + (i 1).val, ha⟩ (i 2))
    (by rw [Shape.rowMajor_val_two, Shape.rowMajor_val_three]; rfl)]
  unfold product linear
  refine Finset.sum_congr rfl fun r _ => ?_
  show Xn m c ((i 0).val * 2048 + (i 1).val) r.val * Wn m c (i 2).val r.val = _
  unfold Xn Wn
  rw [nat2_of_lt _ _ _ ha r.isLt, nat2_of_lt _ _ _ h2 r.isLt, left_eq, right_eq]
  rw [shapeCast_apply (m ((c : Thread nD τ).loc main_arg0)) shapeCasts_S2x2048x4096_S4096x4096 (ix2 ⟨(i 0).val * 2048 + (i 1).val, ha⟩ ⟨r.val, r.isLt⟩)
    (ix3 (i 0) (i 1) r) (by
      show (S2x2048x4096.rowMajor (ix3 (i 0) (i 1) r)).val = (S4096x4096.rowMajor (ix2 ⟨(i 0).val * 2048 + (i 1).val, ha⟩ ⟨r.val, r.isLt⟩)).val
      rw [Shape.rowMajor_val_three, Shape.rowMajor_val_two]; rfl)]
  rfl

/-- Every weakly fair execution of the kernel program ends with its result at the linear layer of its arguments
    and its arguments as launched. -/
theorem run : θ_run defs (onTc (τ := τ) (main (F := Ideal))) ⟨m, fun _ => 0, ρ⟩ fun r => ∀ c : Dev nD,
      r.2.mem ((c : Thread nD τ).loc main_v14) = linear (m ((c : Thread nD τ).loc main_arg0)) (weights (m ((c : Thread nD τ).loc main_arg1)) (m ((c : Thread nD τ).loc main_arg2)) (m ((c : Thread nD τ).loc main_arg3)))
      ∧ r.2.mem ((c : Thread nD τ).loc main_arg0) = (m ((c : Thread nD τ).loc main_arg0))
      ∧ r.2.mem ((c : Thread nD τ).loc main_arg1) = (m ((c : Thread nD τ).loc main_arg1))
      ∧ r.2.mem ((c : Thread nD τ).loc main_arg2) = (m ((c : Thread nD τ).loc main_arg2))
      ∧ r.2.mem ((c : Thread nD τ).loc main_arg3) = (m ((c : Thread nD τ).loc main_arg3)) :=
  (θ_run defs _ _).mono (fun _ h c =>
    ⟨(((h c).2 main_v14 (Pipeline.mem_restRefs_of main_v14 (by decide) (by decide))).trans (tail_eq m c)).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Array

end
-- ==== Proof.RefSide.lean ====
/-
  The reference's value: its one dot_general contracts the last axis of x with the last axis of the
  dequantised weight matrix, so its result at (b, s, o) is the sum over i < 4096 of x (b, s, i) * w (o, i):
  the linear layer of the specification, of x and the weights the reference's own host operations compute.
-/
import proofs.«158216_j49907519980150_1_alg».proof.Defs
import proofs.«158216_j49907519980150_1_alg».proof.Proof.Gen.ReferenceIdeal.Run
import proofs.«158216_j49907519980150_1_alg».proof.Proof.Gen.ReferenceIdeal.Read
import proofs.«158216_j49907519980150_1_alg».proof.Proof.MatmulSpec

noncomputable section

namespace Cert.ReferenceIdeal.RefValue

open Cert.ReferenceIdeal Cert.ReferenceIdeal.Gen Cert.ReferenceIdeal.Read Cert.MatmulSpec
open Idealize.ShloMosaic Idealize.ShloMosaic.ValueIdx

/-- The reference's result is the linear layer of x and its weight stage. -/
theorem result_eq (x0 : (⟨S2x2048x4096, .f32⟩ : BufTy).Contents (Elt Ideal)) (x1 : (⟨S2097152, .i32⟩ : BufTy).Contents (Elt Ideal)) (x2 : (⟨S4096x8, .f32⟩ : BufTy).Contents (Elt Ideal)) (x3 : (⟨S4096x1, .f32⟩ : BufTy).Contents (Elt Ideal)) :
    val_main_v10 (F := Ideal) x0 x1 x2 x3 = linear x0 (val_main_v9 (F := Ideal) x1 x2 x3) := by
  funext i
  rw [val_main_v10_apply]
  unfold linear
  refine Finset.sum_congr rfl fun k _ => ?_
  have el : lidx_main_v10 i k = ix3 (i 0) (i 1) k := funext fun a => Fin.ext (by
    match a with
    | ⟨0, _⟩ => rfl
    | ⟨1, _⟩ => rfl
    | ⟨2, _⟩ => rfl)
  have er : ridx_main_v10 i k = ix2 (i 2) k := funext fun a => Fin.ext (by
    match a with
    | ⟨0, _⟩ => rfl
    | ⟨1, _⟩ => rfl)
  rw [el, er]
  rfl

end Cert.ReferenceIdeal.RefValue

end
-- ==== Proof.lean ====
/-
  A vector-quantised linear layer: the weight matrix w [4096 out, 4096 in] is gathered from a codebook
  (rows of 8 values at integer indices, negative indices wrapped by 4096), laid out as [out, in] and scaled
  row by row; the layer's value is out (b, s, o) = the sum over i < 4096 of x (b, s, i) * w (o, i).

  Both programs build w by the same host operations.  The reference contracts x with w in one dot_general.
  The kernel merges the leading axes of x, narrows both operands to bf16 (the identity on extended reals),
  and multiplies tile by tile on a 4 x 4 x 4 grid: for each output tile it adds four partial products,
  one per column block of 1024, into an accumulator that the first of the four steps resets to zero, and
  writes the accumulator out after the fourth.  Regrouping the sum over 4096 columns into four sums over
  1024 is an identity of the commutative monoid of extended reals under addition, so the two results agree
  entry by entry, for all inputs (no finiteness is used).

  The three frames: the kernel programs' are the generated frame proofs; the reference's is its run with
  the result dropped.  The idealization rewrote nothing, so what it preserves is trivially true.
-/
import proofs.«158216_j49907519980150_1_alg».proof.Defs
import proofs.«158216_j49907519980150_1_alg».proof.Proof.Gen.Kernel
import proofs.«158216_j49907519980150_1_alg».proof.Proof.Gen.Kernel.Skeleton
import proofs.«158216_j49907519980150_1_alg».proof.Proof.Gen.Kernel.Launch
import proofs.«158216_j49907519980150_1_alg».proof.Proof.Gen.Kernel.Points
import proofs.«158216_j49907519980150_1_alg».proof.Proof.Gen.Kernel.Frame
import proofs.«158216_j49907519980150_1_alg».proof.Proof.Gen.KernelIdeal
import proofs.«158216_j49907519980150_1_alg».proof.Proof.Gen.KernelIdeal.Skeleton
import proofs.«158216_j49907519980150_1_alg».proof.Proof.Gen.KernelIdeal.Launch
import proofs.«158216_j49907519980150_1_alg».proof.Proof.Gen.KernelIdeal.Points
import proofs.«158216_j49907519980150_1_alg».proof.Proof.Gen.KernelIdeal.Frame
import proofs.«158216_j49907519980150_1_alg».proof.Proof.Gen.ReferenceIdeal
import proofs.«158216_j49907519980150_1_alg».proof.Proof.Gen.Pre_finite_inputs
import proofs.«158216_j49907519980150_1_alg».proof.Proof.MatmulRun
import proofs.«158216_j49907519980150_1_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel program's weight matrix and the reference's are the same host operations of the same arguments. -/
theorem weights_eq (x1 : IVec Cert.KernelIdeal.S2097152 32) (x2 : FVec Ideal Cert.KernelIdeal.S4096x8 .f32)
    (x3 : FVec Ideal Cert.KernelIdeal.S4096x1 .f32) :
    Cert.ReferenceIdeal.Read.val_main_v9 (F := Ideal) x1 x2 x3 = Cert.KernelIdeal.Array.weights x1 x2 x3 := rfl

/-- Both programs end at the linear layer of x and the dequantised weights. -/
theorem algebraic : Cert.algebraic_KernelIdeal_ReferenceIdeal := by
  intro m ρ m' ρ' _ hagree
  refine ⟨fun c => Cert.MatmulSpec.linear (m ((c.tc : Thread Cert.KernelIdeal.nD Cert.KernelIdeal.τ).loc Cert.KernelIdeal.main_arg0)) (Cert.KernelIdeal.Array.weights (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))),
    Cert.KernelIdeal.Array.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v10_eq, Cert.ReferenceIdeal.RefValue.result_eq,
    (hagree c).1, (hagree c).2.1, (hagree c).2.2.1, (hagree c).2.2.2, weights_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
